-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S2x800000 32) (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  let main_v40 : IVec S1x800000 32 := (extractStridedSlice S1x800000 ![0, 0] · slices_S2x800000_S1x800000_0_0) main_arg7
  let main_v41 : IVec S800000 32 := shapeCast S800000 main_v40 shapeCasts_S1x800000_S800000
  let main_c_13 : IVec S_ 32 := constantI S_ 32 4294917296#32
  let main_v42 : IVec S800000 32 := broadcastInDim S800000 ![] bcast_S_S800000 main_c_13
  let main_v43 : IVec S800000 1 := cmpi .sge main_v41 main_v42
  let main_v44 : IVec S1x800000 32 := (extractStridedSlice S1x800000 ![0, 0] · slices_S2x800000_S1x800000_0_0) main_arg7
  let main_v45 : IVec S800000 32 := shapeCast S800000 main_v44 shapeCasts_S1x800000_S800000
  let main_c_14 : IVec S_ 32 := constantI S_ 32 50000#32
  let main_v46 : IVec S800000 32 := broadcastInDim S800000 ![] bcast_S_S800000 main_c_14
  let main_v47 : IVec S800000 1 := cmpi .slt main_v45 main_v46
  let main_v48 : IVec S800000 1 := andi main_v43 main_v47
  let main_c_15 : IVec S_ 1 := constantI S_ 1 1#1
  let main_v49 : IVec S_ 1 := (fun x v => Host.reduce IntOp.andi x v reducesTo_S800000_S_d0 h_S_) main_v48 main_c_15
  let main_v50 : IVec S_ 1 := andi main_v39 main_v49
  main_v50

def fn_part1 {F : FTy → Type} [FloatOps F] (main_arg4 : FVec F S128x128 .f32) (main_arg5 : FVec F S128 .f32) (main_arg6 : IVec S2x800000 32) (main_arg7 : IVec S2x800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x800000 32 := (extractStridedSlice S1x800000 ![0, 0] · slices_S2x800000_S1x800000_0_0) main_arg6
  let main_v30 : IVec S800000 32 := shapeCast S800000 main_v29 shapeCasts_S1x800000_S800000
  let main_c_10 : IVec S_ 32 := constantI S_ 32 4294917296#32
  let main_v31 : IVec S800000 32 := broadcastInDim S800000 ![] bcast_S_S800000 main_c_10
  let main_v32 : IVec S800000 1 := cmpi .sge main_v30 main_v31
  let main_v33 : IVec S1x800000 32 := (extractStridedSlice S1x800000 ![0, 0] · slices_S2x800000_S1x800000_0_0) main_arg6
  let main_v34 : IVec S800000 32 := shapeCast S800000 main_v33 shapeCasts_S1x800000_S800000
  fn_part2 (F := F) main_arg7 main_v28 main_v32 main_v34

def fn {F : FTy → Type} [FloatOps F] (main_arg0 : FVec F S50000x128 .f32) (main_arg1 : FVec F S128x128 .f32) (main_arg2 : FVec F S128 .f32) (main_arg3 : FVec F S128x128 .f32) (main_arg4 : FVec F S128x128 .f32) (main_arg5 : FVec F S128 .f32) (main_arg6 : IVec S2x800000 32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 98
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S2x800000, .i32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x128, .f32⟩
  | .hbm, ⟨31, _⟩ => ⟨S800000x128, .i1⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x800000, .i32⟩
  | .hbm, ⟨52, _⟩ => ⟨S800000, .i32⟩
  | .hbm, ⟨53, _⟩ => ⟨S1x800000, .i32⟩
  | .hbm, ⟨54, _⟩ => ⟨S800000, .i32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S1, .i32⟩
  | .hbm, ⟨64, _⟩ => ⟨S_, .i32⟩
  | .hbm, ⟨65, _⟩ => ⟨S800000x1, .i32⟩
  | .hbm, ⟨66, _⟩ => ⟨S800000x1, .i1⟩
  | .hbm, ⟨67, _⟩ => ⟨S1x1, .i32⟩
  | .hbm, ⟨68, _⟩ => ⟨S800000x1, .i32⟩
  | .hbm, ⟨69, _⟩ => ⟨S800000x1, .i1⟩
  | .hbm, ⟨70, _⟩ => ⟨S800000x1, .i1⟩
  | .hbm, ⟨71, _⟩ => ⟨S_, .i1⟩
  | .hbm, ⟨72, _⟩ => ⟨S800000, .i1⟩
  | .hbm, ⟨73, _⟩ => ⟨S800000x128, .f32⟩
  | .hbm, ⟨74, _⟩ => ⟨S800000x128, .i1⟩
  | .hbm, ⟨75, _⟩ => ⟨S_, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S128x128, .bf16⟩
  | .hbm, ⟨95, _⟩ => ⟨S128x128, .bf16⟩
  | .hbm, ⟨96, _⟩ => ⟨S128x128, .bf16⟩
  | .hbm, ⟨97, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v21 : Ref sig .tc := ⟨.hbm, 77, rfl⟩
abbrev main_cst_3 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_4 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_6 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S2000x128_S2000x128 : S2000x128.ShapeCasts S2000x128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S2x800000, .i32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x800000, .i32⟩
  | .hbm, ⟨62, _⟩ => ⟨S800000, .i32⟩
  | .hbm, ⟨63, _⟩ => ⟨S1x800000, .i32⟩
  | .hbm, ⟨64, _⟩ => ⟨S800000, .i32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S_, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  One output row of the layer, as a function of that node's data alone.

  For a node with mean-aggregated neighbour features `a` (first edge type) and `b` (second edge type) and own
  features `x`, all in ℝ̄¹²⁸, and weights `Wl Wr Wp` (128 × 128) and biases `bl bp`:

    hidden(a)  = (a · Wl + bl) + x · Wr                 (a row times a matrix: a sum over the 128 input channels)
    logits(a)  = hidden(a) · Wp + bp
    softmax(L) = exp(L − max L) / Σ exp(L − max L)      (the maximum folded from −∞ over the 128 channels)
    row        = (softmax(logits a) + softmax(logits b)) · ½

  Every operation is the extended reals' own, in exactly this association: nothing is rearranged, so no finiteness is
  needed to compare two programs that both compute it. The whole output array applies this row function to each
  node's three rows.
-/
import Idealize.ShloMosaic.PureOps.Ideal
import Idealize.ShloMosaic.Lib.ValueIdx

noncomputable section

namespace Cert.SageRow

open Idealize.ShloMosaic Idealize.ShloMosaic.ValueIdx

/-- A node's 128 channels. -/
abbrev Row := Fin 128 → EReal
/-- A 128 × 128 weight matrix, input channel first. -/
abbrev Mat := Fin 128 → Fin 128 → EReal

/-- The value −∞ a row maximum starts from (the f32 pattern of −∞, never evaluated: both programs carry it). -/
def ninf : EReal := Ideal.ofBits .f32 0xFF800000#32
/-- The factor ½ of the mean over the two edge types (the f32 pattern of 0.5, carried by both programs). -/
def half : EReal := Ideal.ofBits .f32 0x3F000000#32

/-- A row times a matrix. -/
def vecMat (a : Row) (W : Mat) : Row := fun j => ∑ k : Fin 128, a k * W k j

/-- The SAGE convolution of one node: the aggregated row through `Wl`, plus the bias, plus the node's own row through `Wr`. -/
def hidden (a x : Row) (Wl Wr : Mat) (bl : Row) : Row := fun j => (vecMat a Wl j + bl j) + vecMat x Wr j

/-- The pooling layer on top of it. -/
def logits (a x : Row) (Wl Wr Wp : Mat) (bl bp : Row) : Row := fun j => vecMat (hidden a x Wl Wr bl) Wp j + bp j

/-- The row's maximum, folded from −∞ (and joined with −∞ once more, as both programs do). -/
def rowMax (L : Row) : EReal := max ninf (Finset.univ.fold max ninf L)

/-- The softmax of a row, shifted by its maximum. -/
def softmax (L : Row) : Row :=
  fun j => Ideal.div (Ideal.exp (L j - rowMax L)) (∑ k : Fin 128, Ideal.exp (L k - rowMax L))

/-- The output row: the mean of the two edge types' softmaxes. -/
def rowOut (a b x : Row) (Wl Wr Wp : Mat) (bl bp : Row) : Row :=
  fun j => (softmax (logits a x Wl Wr Wp bl bp) j + softmax (logits b x Wl Wr Wp bl bp) j) * half

/-- The whole output over `n` nodes: row `r` is the row function of row `r` of the two aggregated arrays and of the features. -/
def out (n : Nat) (A B X : (⟨2, ![n, 128]⟩ : Shape).Idx → EReal) (Wl Wr Wp : (⟨2, ![128, 128]⟩ : Shape).Idx → EReal)
    (bl bp : (⟨1, ![128]⟩ : Shape).Idx → EReal) : (⟨2, ![n, 128]⟩ : Shape).Idx → EReal :=
  fun i => rowOut (fun k => A (ix2 (n0 := n) (n1 := 128) (i 0) k)) (fun k => B (ix2 (n0 := n) (n1 := 128) (i 0) k))
    (fun k => X (ix2 (n0 := n) (n1 := 128) (i 0) k))
    (fun k j => Wl (ix2 k j)) (fun k j => Wr (ix2 k j)) (fun k j => Wp (ix2 k j)) (fun j => bl (ix1 j)) (fun j => bp (ix1 j)) (i 1)

/-- At node `r`, channel `j`. -/
theorem out_apply (n : Nat) (A B X : (⟨2, ![n, 128]⟩ : Shape).Idx → EReal) (Wl Wr Wp : (⟨2, ![128, 128]⟩ : Shape).Idx → EReal)
    (bl bp : (⟨1, ![128]⟩ : Shape).Idx → EReal) (r : Fin n) (j : Fin 128) :
    out n A B X Wl Wr Wp bl bp (ix2 r j)
      = rowOut (fun k => A (ix2 r k)) (fun k => B (ix2 r k)) (fun k => X (ix2 r k))
          (fun k j => Wl (ix2 k j)) (fun k j => Wr (ix2 k j)) (fun k j => Wp (ix2 k j)) (fun j => bl (ix1 j)) (fun j => bp (ix1 j)) j := rfl

end Cert.SageRow

end
-- ==== Proof.LibRowOps.lean ====
/-
  Rows of a rank-2 array, read at an index: the keepdims column forms of a vector, and a reduction along the second axis.

  * A vector [a] kept as a column [a, 1] reads, at (p, 0), the vector at p; a column [a, 1] broadcast to [a, b] reads, at
    (p, c), the column at (p, 0). Together: "subtract the row's maximum", "divide by the row's sum".
  * Reducing a [a, b] array along its second axis, at row p: the index the reduction inserts coordinate k at is (p, k), so a
    maximum is the fold of max over the row's b entries from the starting value, and a sum is the sum of the row's entries —
    for the vector unit's reduction and for the host's alike.
  All at arbitrary extents a, b.
-/
import Idealize.ShloMosaic.PureOps.Ideal.Laws
import Idealize.ShloMosaic.Lib.Pipeline.Value
import Idealize.ShloMosaic.Lib.ValueIdx

noncomputable section

namespace Cert.RowOps

open Idealize.ShloMosaic Idealize.ShloMosaic.ValueIdx

variable {α : Type}

/-! ## A vector as a column, and a column over many columns -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector `[a]` laid along the rows of `[a, b]` reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-! ## A reduction along the second axis, at a row -/

/-- The index a reduction along axis 1 inserts coordinate `k` at, for row `p`, is `(p, k)`. -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- A row's maximum on the vector unit, at the ideal values: the fold of `max` over the row's entries from the accumulator's value. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (fun f : Fin b → EReal => (Finset.univ : Finset (Fin b)).fold max (Ideal.ofBits φ acc) f)
    (funext fun k => congrArg src (lift_row h p k))

/-- A row's sum on the vector unit, at the ideal values: the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  simp only [lift_row]

/-- A row's maximum on the host, at the ideal values: the fold of `max` over the row's entries from the initial value. -/
theorem hostReduce_max_row {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single (FloatOps.maximumf (F := Ideal) (φ := φ)) x init h' h hu (ix1 p)).trans ?_
  rw [eq_ix0 (Shape.Idx.first hu)]
  exact congrArg (fun f : Fin b → EReal => (Finset.univ : Finset (Fin b)).fold max (init ix0) f)
    (funext fun k => congrArg x (lift_row h p k))

/-- A row's sum on the host, at the ideal values: the initial value plus the sum of the row's entries. -/
theorem hostReduceAdd_row {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (p : Fin a) :
    Ideal.hostReduceAdd h' x init (ix1 p) = init + ∑ k : Fin b, x (ix2 p k) := by
  refine (Ideal.hostReduceAdd_single h' h x init (ix1 p)).trans ?_
  show init + ∑ k : Fin b, x (h.lift (ix1 p) k) = _
  simp only [lift_row]

end Cert.RowOps

end
-- ==== Proof.KernelRow.lean ====
/-
  The kernel's body, row by row.

  At one grid point the body holds a block of 2000 nodes: their two aggregated rows, their features, and the whole
  weights and biases. It computes, per edge type, the same three stages as the reference — the convolution (two matrix
  products into a zero accumulator and a bias; the products' operands are narrowed to bf16, which at the ideal values
  changes nothing), the pooling layer, a softmax along the lanes — and stores the mean of the two softmaxes. Each
  stage's entry at block row p, lane q depends on row p of the block only, so the stored block at (p, q) is the row
  function of row p of the three input blocks.
-/
import proofs.«429687_j41635412968139_1_alg».proof.Proof.Gen.KernelIdeal.Skeleton
import proofs.«429687_j41635412968139_1_alg».proof.Proof.RowSpec
import proofs.«429687_j41635412968139_1_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KernelRow

open Cert.KernelIdeal Cert.KernelIdeal.Gen Idealize.ShloMosaic Idealize.ShloMosaic.TcCoe
open Idealize.ShloMosaic.ValueIdx Cert.SageRow Cert.RowOps

/-! ## The matrix unit's product, read at (p, q) -/

theorem lhs_axis0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] block times a [128, 128] matrix into a zero accumulator, at row p and lane q: the sum over the input channels. -/
theorem prod_apply {φ₁ φ₂ : FTy} (A : FVec Ideal S2000x128 φ₁) (W : FVec Ideal S128x128 φ₂) (p : Fin 2000) (q : Fin 128) :
    matmul dot_S2000x128_S128x128_S2000x128_1_0_0_1_n_n none A W (constant (F := Ideal) S2000x128 .f32 0x00000000#32) (ix2 p q) = ∑ k : Fin 128, A (ix2 p k) * W (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's stages as functions of a block -/

/-- A bias [128] laid along the lanes of every row. -/
def biasRows (b : Vec Ideal S128 .f32) : FVec Ideal S2000x128 .f32 :=
  broadcastTo S2000x128 (shapeCast S1x128 b shapeCasts_S128_S1x128) broadcasts_S1x128_S2000x128

/-- A per-row value [2000] laid along every lane. -/
def perRow (v : FVec Ideal S2000 .f32) : FVec Ideal S2000x128 .f32 :=
  broadcastTo S2000x128 (shapeCast S2000x1 v shapeCasts_S2000_S2000x1) broadcasts_S2000x1_S2000x128

/-- The convolution of an aggregated block (already narrowed) and the features' product `xr`. -/
def conv (aggb : FVec Ideal S2000x128 .bf16) (xr : FVec Ideal S2000x128 .f32) (wl : FVec Ideal S128x128 .bf16) (bl : Vec Ideal S128 .f32)
    (acc : FVec Ideal S2000x128 .f32) : FVec Ideal S2000x128 .f32 :=
  addf (addf (matmul dot_S2000x128_S128x128_S2000x128_1_0_0_1_n_n none aggb wl acc) (biasRows bl)) xr

/-- The pooling layer. -/
def pool (h : FVec Ideal S2000x128 .f32) (wp : FVec Ideal S128x128 .bf16) (bp : Vec Ideal S128 .f32) : FVec Ideal S2000x128 .f32 :=
  addf (matmul dot_S2000x128_S128x128_S2000x128_1_0_0_1_n_n none (truncf .bf16 h bitsLt_bf16_f32) wp (constant (F := Ideal) S2000x128 .f32 0x00000000#32)) (biasRows bp)

/-- Each row's maximum over the lanes, from −∞. -/
def blockMax (L : FVec Ideal S2000x128 .f32) : FVec Ideal S2000 .f32 :=
  maximumf (broadcast S2000 (Scalar.ofBits (F := Ideal) .f32 0xFF800000#32))
    (multiReduction .maximumf [1] S2000 L 0xFF800000#32 reduces_S2000x128_S2000 (.inl rfl) rfl)

/-- The exponentials of the logits shifted by their row's maximum. -/
def shiftedExp (L : FVec Ideal S2000x128 .f32) : FVec Ideal S2000x128 .f32 := exp (subf L (perRow (blockMax L)))

/-- The softmax along the lanes. -/
def soft (L : FVec Ideal S2000x128 .f32) : FVec Ideal S2000x128 .f32 :=
  divf (shiftedExp L) (perRow (multiReduction .add [1] S2000 (shiftedExp L) 0x00000000#32 reduces_S2000x128_S2000 (.inl rfl) rfl))

/-! ## Each stage at (p, q) -/

theorem biasRows_apply (b : Vec Ideal S128 .f32) (p : Fin 2000) (q : Fin 128) : biasRows b (ix2 p q) = b (ix1 q) := by
  unfold biasRows
  exact (ValueIdx.broadcastTo_1b_ab_apply (a := 2000) (b := 128) _ broadcasts_S1x128_S2000x128 p q).trans
    (ValueIdx.shapeCast_a_1a_apply (a := 128) b shapeCasts_S128_S1x128 0 q)

theorem perRow_apply (v : FVec Ideal S2000 .f32) (p : Fin 2000) (q : Fin 128) : perRow v (ix2 p q) = v (ix1 p) := by
  unfold perRow
  exact column_apply (a := 2000) (b := 128) v shapeCasts_S2000_S2000x1 broadcasts_S2000x1_S2000x128 p q

theorem blockMax_apply (L : FVec Ideal S2000x128 .f32) (p : Fin 2000) : blockMax L (ix1 p) = rowMax (fun k => L (ix2 p k)) := by
  unfold blockMax
  rw [maximumf_apply, multiReduction_max_row (a := 2000) (b := 128) L 0xFF800000#32 reduces_S2000x128_S2000 (.inl rfl) rfl p]
  rfl

theorem shiftedExp_apply (L : FVec Ideal S2000x128 .f32) (p : Fin 2000) (q : Fin 128) :
    shiftedExp L (ix2 p q) = Ideal.exp (L (ix2 p q) - rowMax (fun k => L (ix2 p k))) := by
  unfold shiftedExp
  show Ideal.exp (subf L (perRow (blockMax L)) (ix2 p q)) = _
  rw [subf_apply, perRow_apply, blockMax_apply]

theorem soft_apply (L : FVec Ideal S2000x128 .f32) (p : Fin 2000) (q : Fin 128) : soft L (ix2 p q) = softmax (fun k => L (ix2 p k)) q := by
  unfold soft
  have hsum : multiReduction .add [1] S2000 (shiftedExp L) 0x00000000#32 reduces_S2000x128_S2000 (.inl rfl) rfl (ix1 p)
      = ∑ k : Fin 128, Ideal.exp (L (ix2 p k) - rowMax (fun k => L (ix2 p k))) :=
    (multiReduction_add_row (a := 2000) (b := 128) (shiftedExp L) 0x00000000#32 reduces_S2000x128_S2000 (.inl rfl) rfl p).trans
      (Finset.sum_congr rfl fun k _ => shiftedExp_apply L p k)
  rw [divf_apply, perRow_apply, hsum, shiftedExp_apply]
  rfl

theorem conv_apply (aggb : FVec Ideal S2000x128 .bf16) (X : FVec Ideal S2000x128 .bf16) (wl wr : FVec Ideal S128x128 .bf16) (bl : Vec Ideal S128 .f32)
    (p : Fin 2000) (q : Fin 128) :
    conv aggb (matmul dot_S2000x128_S128x128_S2000x128_1_0_0_1_n_n none X wr (constant (F := Ideal) S2000x128 .f32 0x00000000#32)) wl bl (constant (F := Ideal) S2000x128 .f32 0x00000000#32) (ix2 p q)
      = hidden (fun k => aggb (ix2 p k)) (fun k => X (ix2 p k)) (fun k j => wl (ix2 k j)) (fun k j => wr (ix2 k j)) (fun j => bl (ix1 j)) q := by
  unfold conv
  rw [addf_apply, addf_apply, prod_apply, prod_apply, biasRows_apply]
  rfl

theorem pool_apply (h : FVec Ideal S2000x128 .f32) (wp : FVec Ideal S128x128 .bf16) (bp : Vec Ideal S128 .f32) (p : Fin 2000) (q : Fin 128) :
    pool h wp bp (ix2 p q) = vecMat (fun k => h (ix2 p k)) (fun k j => wp (ix2 k j)) q + bp (ix1 q) := by
  unfold pool
  rw [addf_apply, prod_apply, biasRows_apply]
  rfl

/-- One edge type's branch of the body at (p, q): the softmax of the row's logits. -/
theorem branch_apply (aggb X : FVec Ideal S2000x128 .bf16) (wl wr wp : FVec Ideal S128x128 .bf16) (bl bp : Vec Ideal S128 .f32) (p : Fin 2000) (q : Fin 128) :
    soft (pool (conv aggb (matmul dot_S2000x128_S128x128_S2000x128_1_0_0_1_n_n none X wr (constant (F := Ideal) S2000x128 .f32 0x00000000#32)) wl bl (constant (F := Ideal) S2000x128 .f32 0x00000000#32)) wp bp) (ix2 p q)
      = softmax (logits (fun k => aggb (ix2 p k)) (fun k => X (ix2 p k)) (fun k j => wl (ix2 k j)) (fun k j => wr (ix2 k j)) (fun k j => wp (ix2 k j))
          (fun j => bl (ix1 j)) (fun j => bp (ix1 j))) q := by
  rw [soft_apply]
  refine congrArg (fun L => softmax L q) (funext fun k => ?_)
  rw [pool_apply]
  refine congrArg (fun H => vecMat H (fun k j => wp (ix2 k j)) k + bp (ix1 k)) (funext fun k' => ?_)
  exact conv_apply aggb X wl wr bl p k'

/-! ## The payloads are these stages -/

/-- The first edge type's softmax, as the body computes it from its loads. -/
theorem first_branch (v0 : FVec Ideal S2000x128 .f32) (v1 v3 v5 : FVec Ideal S128x128 .bf16) (v7 v8 : FVec Ideal S128 .f32) (v11 : FVec Ideal S2000x128 .f32) :
    k0_pay5 (F := Ideal) v0 v1 v3 v5 v7 v8 v11
      = soft (pool (conv (truncf .bf16 v11 bitsLt_bf16_f32)
          (matmul dot_S2000x128_S128x128_S2000x128_1_0_0_1_n_n none (truncf .bf16 v0 bitsLt_bf16_f32) v3 (constant (F := Ideal) S2000x128 .f32 0x00000000#32)) v1 v7
          (constant (F := Ideal) S2000x128 .f32 0x00000000#32)) v5 v8) := by
  unfold k0_pay5 k0_pay4 k0_pay2 k0_pay3
  simp only [shapeCast_self]
  rfl

/-- THE STORED BLOCK at (p, q) is the row function of row p of the three input blocks. -/
theorem payload_apply (x0 x1 x2 : FVec Ideal S2000x128 .f32) (x3 x4 x5 : FVec Ideal S128x128 .bf16) (x6 x7 : FVec Ideal S128 .f32) (p : Fin 2000) (q : Fin 128) :
    k0_pay1 (F := Ideal) (k0_pay2 x3) (k0_pay3 x5) x6 x7 (k0_pay4 x2 x4) (k0_pay5 x2 x3 x4 x5 x6 x7 x0) (k0_pay6 x1)
        (constant (F := Ideal) S2000x128 .f32 0x00000000#32) (ix2 p q)
      = rowOut (fun k => x0 (ix2 p k)) (fun k => x1 (ix2 p k)) (fun k => x2 (ix2 p k)) (fun k j => x3 (ix2 k j)) (fun k j => x4 (ix2 k j))
          (fun k j => x5 (ix2 k j)) (fun j => x6 (ix1 j)) (fun j => x7 (ix1 j)) q := by
  have hB : k0_pay1 (F := Ideal) (k0_pay2 x3) (k0_pay3 x5) x6 x7 (k0_pay4 x2 x4) (k0_pay5 x2 x3 x4 x5 x6 x7 x0) (k0_pay6 x1)
        (constant (F := Ideal) S2000x128 .f32 0x00000000#32)
      = mulf (addf (k0_pay5 (F := Ideal) x2 x3 x4 x5 x6 x7 x0)
          (soft (pool (conv (truncf .bf16 x1 bitsLt_bf16_f32)
            (matmul dot_S2000x128_S128x128_S2000x128_1_0_0_1_n_n none (truncf .bf16 x2 bitsLt_bf16_f32) x4 (constant (F := Ideal) S2000x128 .f32 0x00000000#32)) x3 x6
            (constant (F := Ideal) S2000x128 .f32 0x00000000#32)) x5 x7)))
          (broadcast S2000x128 (Scalar.ofBits (F := Ideal) .f32 0x3F000000#32)) := by
    unfold k0_pay1 k0_pay6 k0_pay4 k0_pay2 k0_pay3
    simp only [shapeCast_self]
    rfl
  rw [hB, first_branch, mulf_apply, addf_apply, branch_apply, branch_apply]
  rfl

end Cert.KernelIdeal.KernelRow

end
-- ==== Proof.KernelBlocks.lean ====
/-
  Where each window's block sits.

  Grid point t works on nodes 2000·t … 2000·t + 1999: it fetches rows 2000·t + p of the two aggregated arrays and of the
  features (block index (t, 0) of 2000 × 128 blocks) and the whole weights and biases (block index 0), and writes rows
  2000·t + p of the output. Read at an element, for ANY array in the window's place: entry (p, k) of a node-tiled block is
  entry (2000·t + p, k) of the array, and a resident block is the array.
-/
import proofs.«429687_j41635412968139_1_alg».proof.Proof.Gen.KernelIdeal.Value
import proofs.«429687_j41635412968139_1_alg».proof.Proof.KernelRow

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SageRow Cert.KernelIdeal.KernelRow
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 points: the node-tiled windows are at block (t, 0), the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

/-- Node 2000·t + p. -/
def node (t : Fin cfg0.N) (p : Fin 2000) : Fin 50000 :=
  ⟨t.val * 2000 + p.val, by have ht : t.val < 25 := by have := t.isLt; have hN : cfg0.N = 25 := N_0; omega
                            have := p.isLt; omega⟩

/-- Window 0's block at point t, of ANY [50000, 128] array: entry (p, k) is the array's entry (2000·t + p, k). -/
theorem read0 (A : FVec Ideal S50000x128 .f32) (t : Fin cfg0.N) (p : Fin 2000) (k : Fin 128) :
    ((cfg0.win 0).blk t).view.read (Elt Ideal) A (ix2 p k) = A (ix2 (node t p) k) := by
  have e0 : win0_0.index t (0 : Fin 2) = t.val := (idx_facts t).1
  have e1 : win0_0.index t (1 : Fin 2) = 0 := (idx_facts t).2.1
  show A (((cfg0.win 0).blk t).view.emb (ix2 p k)) = A (ix2 (node t p) k)
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Window 1's block at point t, of ANY [50000, 128] array: entry (p, k) is the array's entry (2000·t + p, k). -/
theorem read1 (A : FVec Ideal S50000x128 .f32) (t : Fin cfg0.N) (p : Fin 2000) (k : Fin 128) :
    ((cfg0.win 1).blk t).view.read (Elt Ideal) A (ix2 p k) = A (ix2 (node t p) k) := by
  have e0 : win0_1.index t (0 : Fin 2) = t.val := (idx_facts t).2.2.1
  have e1 : win0_1.index t (1 : Fin 2) = 0 := (idx_facts t).2.2.2.1
  show A (((cfg0.win 1).blk t).view.emb (ix2 p k)) = A (ix2 (node t p) k)
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Window 2's block at point t, of ANY [50000, 128] array: entry (p, k) is the array's entry (2000·t + p, k). -/
theorem read2 (A : FVec Ideal S50000x128 .f32) (t : Fin cfg0.N) (p : Fin 2000) (k : Fin 128) :
    ((cfg0.win 2).blk t).view.read (Elt Ideal) A (ix2 p k) = A (ix2 (node t p) k) := by
  have e0 : win0_2.index t (0 : Fin 2) = t.val := (idx_facts t).2.2.2.2.1
  have e1 : win0_2.index t (1 : Fin 2) = 0 := (idx_facts t).2.2.2.2.2.1
  show A (((cfg0.win 2).blk t).view.emb (ix2 p k)) = A (ix2 (node t p) k)
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

/-- Window 8's block at point t, of ANY [50000, 128] array: entry (p, k) is the array's entry (2000·t + p, k). -/
theorem read8 (A : FVec Ideal S50000x128 .f32) (t : Fin cfg0.N) (p : Fin 2000) (k : Fin 128) :
    ((cfg0.win 8).blk t).view.read (Elt Ideal) A (ix2 p k) = A (ix2 (node t p) k) := by
  have e0 : win0_8.index t (0 : Fin 2) = t.val := (idx_facts t).2.2.2.2.2.2.2.2.2.2.2.2.2.2.1
  have e1 : win0_8.index t (1 : Fin 2) = 0 := (idx_facts t).2.2.2.2.2.2.2.2.2.2.2.2.2.2.2
  show A (((cfg0.win 8).blk t).view.emb (ix2 p k)) = A (ix2 (node t p) k)
  refine congrArg A (funext fun a => Fin.ext ?_)
  match a with
  | ⟨0, _⟩ => show win0_8.index t (0 : Fin 2) * 2000 + 1 * p.val = t.val * 2000 + p.val; rw [e0]; omega
  | ⟨1, _⟩ => show win0_8.index t (1 : Fin 2) * 128 + 1 * k.val = k.val; rw [e1]; omega

/-- Window 3's block at any point, of ANY [128, 128] array: the array itself. -/
theorem read3 (A : FVec Ideal S128x128 .bf16) (t : Fin cfg0.N) (k j : Fin 128) :
    ((cfg0.win 3).blk t).view.read (Elt Ideal) A (ix2 k j) = A (ix2 k j) := by
  have e0 : win0_3.index t (0 : Fin 2) = 0 := (idx_facts t).2.2.2.2.2.2.1
  have e1 : win0_3.index t (1 : Fin 2) = 0 := (idx_facts t).2.2.2.2.2.2.2.1
  show A (((cfg0.win 3).blk t).view.emb (ix2 k j)) = A (ix2 k j)
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- Window 4's block at any point, of ANY [128, 128] array: the array itself. -/
theorem read4 (A : FVec Ideal S128x128 .bf16) (t : Fin cfg0.N) (k j : Fin 128) :
    ((cfg0.win 4).blk t).view.read (Elt Ideal) A (ix2 k j) = A (ix2 k j) := by
  have e0 : win0_4.index t (0 : Fin 2) = 0 := (idx_facts t).2.2.2.2.2.2.2.2.1
  have e1 : win0_4.index t (1 : Fin 2) = 0 := (idx_facts t).2.2.2.2.2.2.2.2.2.1
  show A (((cfg0.win 4).blk t).view.emb (ix2 k j)) = A (ix2 k j)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- Window 5's block at any point, of ANY [128, 128] array: the array itself. -/
theorem read5 (A : FVec Ideal S128x128 .bf16) (t : Fin cfg0.N) (k j : Fin 128) :
    ((cfg0.win 5).blk t).view.read (Elt Ideal) A (ix2 k j) = A (ix2 k j) := by
  have e0 : win0_5.index t (0 : Fin 2) = 0 := (idx_facts t).2.2.2.2.2.2.2.2.2.2.1
  have e1 : win0_5.index t (1 : Fin 2) = 0 := (idx_facts t).2.2.2.2.2.2.2.2.2.2.2.1
  show A (((cfg0.win 5).blk t).view.emb (ix2 k j)) = A (ix2 k j)
  refine congrArg A (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- Window 6's block at any point, of ANY [128] array: the array itself. -/
theorem read6 (A : FVec Ideal S128 .f32) (t : Fin cfg0.N) (j : Fin 128) :
    ((cfg0.win 6).blk t).view.read (Elt Ideal) A (ix1 j) = A (ix1 j) := by
  have e0 : win0_6.index t (0 : Fin 1) = 0 := (idx_facts t).2.2.2.2.2.2.2.2.2.2.2.2.1
  show A (((cfg0.win 6).blk t).view.emb (ix1 j)) = A (ix1 j)
  refine congrArg A (funext fun a => Fin.ext ?_)
  match a with
  | ⟨0, _⟩ => show win0_6.index t (0 : Fin 1) * 128 + 1 * j.val = j.val; rw [e0]; omega

/-- Window 7's block at any point, of ANY [128] array: the array itself. -/
theorem read7 (A : FVec Ideal S128 .f32) (t : Fin cfg0.N) (j : Fin 128) :
    ((cfg0.win 7).blk t).view.read (Elt Ideal) A (ix1 j) = A (ix1 j) := by
  have e0 : win0_7.index t (0 : Fin 1) = 0 := (idx_facts t).2.2.2.2.2.2.2.2.2.2.2.2.2.1
  show A (((cfg0.win 7).blk t).view.emb (ix1 j)) = A (ix1 j)
  refine congrArg A (funext fun a => Fin.ext ?_)
  match a with
  | ⟨0, _⟩ => show win0_7.index t (0 : Fin 1) * 128 + 1 * j.val = j.val; rw [e0]; omega

end Cert.KernelIdeal.Blocks

end
-- ==== Proof.KernelFlush.lean ====
/-
  What one grid point writes back.

  Point t stores, at block row p and lane q, the row function of row p of its three fetched blocks; those rows are rows
  2000·t + p of the arrays the region finds, and the resident blocks are the whole weights and biases. So the stored block
  is block t of ONE array: the row function applied node by node to the arrays the region finds.
-/
import proofs.«429687_j41635412968139_1_alg».proof.Proof.KernelBlocks

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SageRow Cert.KernelIdeal.KernelRow
open Idealize.ShloMosaic.Pipeline (Dat)

variable (m : (ℓ : Loc nD τ sig) → Buf (Elt Ideal) ℓ) (ρ : Dev nD → PrngReg)

/-- The output the kernel ends with: the row function, node by node, of the arrays the region finds in its eight input
    windows (the two aggregated arrays, the features, the three narrowed weight matrices, the two biases). -/
def whole (c : Dev nD) : FVec Ideal S50000x128 .f32 :=
  out 50000 (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7))

/-- The row function of equal rows is equal. -/
theorem rowOut_congr {a a' b b' x x' : Row} {Wl Wl' Wr Wr' Wp Wp' : Mat} {bl bl' bp bp' : Row}
    (ha : a = a') (hb : b = b') (hx : x = x') (hWl : Wl = Wl') (hWr : Wr = Wr') (hWp : Wp = Wp') (hbl : bl = bl') (hbp : bp = bp') (q : Fin 128) :
    rowOut a b x Wl Wr Wp bl bp q = rowOut a' b' x' Wl' Wr' Wp' bl' bp' q := by
  subst ha hb hx hWl hWr hWp hbl hbp; rfl

/-- The output window's blocks are whole (no clipped edge): what is written back is the stored block itself. -/
theorem cut8 (t : Fin cfg0.N) (X : FVec Ideal S2000x128 .f32) (j : ((cfg0.win 8).xblock (grid0.coords t)).Idx) :
    (cfg0.win 8).cut (grid0.coords t) X j = X j := rfl

/-- WHAT POINT t WRITES BACK is block t of `whole`. -/
theorem flushed_eq (c : Dev nD) (t : Fin cfg0.N) :
    (dats m 0 c).flushed 8 t = ((cfg0.win 8).blk t).view.read (Elt Ideal) (whole m c) := by
  rw [Value.flushed8]
  funext j
  obtain ⟨p, q, rfl⟩ : ∃ (p : Fin 2000) (q : Fin 128), j = ix2 p q := ⟨j 0, j 1, eq_ix2 j⟩
  refine (cut8 t _ (ix2 p q)).trans ?_
  refine Eq.trans ?_ (read8 (whole m c) t p q).symm
  unfold out0_8
  rw [View.canon_unit_zero hz2]
  simp only [View.ld_unit_zero (S := S2000x128) hz2, View.ld_unit_zero (S := S128x128) hz2, View.ld_unit_zero (S := S128) hz1]
  refine (payload_apply (iblk m c 0 t) (iblk m c 1 t) (iblk m c 2 t) (iblk m c 3 t) (iblk m c 4 t) (iblk m c 5 t) (iblk m c 6 t) (iblk m c 7 t) p q).trans ?_
  unfold whole
  rw [out_apply]
  unfold iblk
  exact rowOut_congr (funext fun k => read0 _ t p k) (funext fun k => read1 _ t p k) (funext fun k => read2 _ t p k)
    (funext fun k => funext fun j => read3 _ t k j) (funext fun k => funext fun j => read4 _ t k j) (funext fun k => funext fun j => read5 _ t k j)
    (funext fun j => read6 _ t j) (funext fun j => read7 _ t j) q

end Cert.KernelIdeal.Blocks

end
-- ==== Proof.KernelFinal.lean ====
/-
  The 25 written blocks cover the output array.

  Node r's row lies in the block of point r / 2000, and every point writes its block back; so after the run the output
  array is the whole-array function everywhere.
-/
import proofs.«429687_j41635412968139_1_alg».proof.Proof.KernelFlush

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SageRow Cert.KernelIdeal.KernelRow
open Idealize.ShloMosaic.Pipeline (Dat)

variable (m : (ℓ : Loc nD τ sig) → Buf (Elt Ideal) ℓ) (ρ : Dev nD → PrngReg)
/-! ## The blocks cover the array -/

theorem mem_blk (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v37).slice (win0_8.rect t)).set ↔ _
  rw [View.set_slice_whole, Rect.mem_set_unit]
  exact Iff.rfl

/-- Node r's row lies in the block of point r / 2000. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  let t : Fin cfg0.N := ⟨(i 0).val / 2000, by omega⟩
  obtain ⟨-, -, -, -, -, -, -, -, -, -, -, -, -, -, e0, e1⟩ := idx_facts t
  have ht : t.val = (i 0).val / 2000 := rfl
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; rw [e0, ht]; omega
  | ⟨1, _⟩ => show win0_8.index t (1 : Fin 2) * 128 ≤ (i 1).val ∧ (i 1).val < win0_8.index t (1 : Fin 2) * 128 + 128; rw [e1]; omega

/-- THE OUTPUT ARRAY after the run is `whole`. -/
theorem final (c : Dev nD) : (dats m 0 c).arrAt 8 cfg0.N = whole m c :=
  (dats m 0 c).arrAt_eq_of_cover 8 (whole m c) (fun t _ => flushed_eq m c t) cover

/-- The kernel's run with its result named: every execution ends with the output at `whole` and the arguments unchanged. -/
theorem run : θ_run defs (onTc (τ := τ) (main (F := Ideal))) ⟨m, fun _ => 0, ρ⟩ fun r => ∀ c : Dev nD,
      r.2.mem ((c : Thread nD τ).loc main_v37) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.IndexRange.lean ====
/-
  The source indices are in range.

  The precondition's last two conjuncts say, of each edge list, that every source index w satisfies −50000 ≤ w < 50000
  (as signed 32-bit integers): the range in which indexing a 50000-row table is defined, negative indices counting from
  the end. Read back from the printed predicate: the predicate is a conjunction, each `all` is a reduction by `and` that
  is 1 only if every entry is 1, and an entry is a pair of signed comparisons.

  For such a w the wrapped index (w + 50000 if w < 0, else w) lies in 0 … 49999: below zero the sum does not leave the
  32-bit range, so it is the integers' sum.
-/
import proofs.«429687_j41635412968139_1_alg».proof.Pre_finite_inputs
import Idealize.ShloMosaic.Lib.ReduceAll
import Idealize.ShloMosaic.Lib.ValueIdx
import Idealize.ShloMosaic.PureOps.Ideal

noncomputable section

namespace Cert.IndexRange

open Idealize.ShloMosaic Idealize.ShloMosaic.ValueIdx

/-- A signed word in −50000 … 49999, wrapped from the end of a 50000-row table when negative, is a row number 0 … 49999. -/
theorem wrap_mem (w : BitVec 32) (hlo : (-50000 : Int) ≤ w.toInt) (hhi : w.toInt < 50000) :
    (0#32 : BitVec 32).toInt ≤ (Scalar.select (IntOp.cmpi .slt w 0#32) (IntOp.addi w 50000#32) w).toInt
    ∧ (Scalar.select (IntOp.cmpi .slt w 0#32) (IntOp.addi w 50000#32) w).toInt ≤ (49999#32 : BitVec 32).toInt := by
  have h0 : (0#32 : BitVec 32).toInt = 0 := by decide
  have h1 : (49999#32 : BitVec 32).toInt = 49999 := by decide
  have h2 : (50000#32 : BitVec 32).toInt = 50000 := by decide
  rw [h0, h1]
  unfold Scalar.select
  by_cases hneg : w.toInt < 0
  · have hc : IntOp.cmpi .slt w 0#32 = 1#1 := IntOp.cmpi_slt.2 (by rw [h0]; exact hneg)
    rw [if_pos (show IntOp.cmpi .slt w 0#32 = 1 from hc)]
    have hs : (IntOp.addi w 50000#32).toInt = w.toInt + 50000 := by
      unfold IntOp.addi
      rw [BitVec.toInt_add, h2]
      exact Int.bmod_eq_of_le_mul_two (by omega) (by omega)
    omega
  · have hc : ¬ IntOp.cmpi .slt w 0#32 = 1#1 := fun h => hneg (by have := IntOp.cmpi_slt.1 h; rwa [h0] at this)
    rw [if_neg (show ¬ IntOp.cmpi .slt w 0#32 = 1 from hc)]
    omega

section Pre

variable [Cert.Pre_finite_inputs.Facts]

open Cert.Pre_finite_inputs Cert.Pre_finite_inputs.Facts

/-- The row of source nodes of an edge list [2, 800000], as the 800000-vector the predicate compares. -/
def srcRow (ei : IVec S2x800000 32) : IVec S800000 32 :=
  shapeCast S800000 (extractStridedSlice S1x800000 ![0, 0] ei slices_S2x800000_S1x800000_0_0) shapeCasts_S1x800000_S800000

/-- One `all((w ≥ −50000) & (w < 50000))` that is 1 gives the two signed bounds at every entry. -/
theorem bounds_of_all (s : IVec S800000 32)
    (h : Host.reduce IntOp.andi
      (andi (cmpi .sge s (broadcastInDim S800000 ![] bcast_S_S800000 (constantI S_ 32 4294917296#32)))
        (cmpi .slt s (broadcastInDim S800000 ![] bcast_S_S800000 (constantI S_ 32 50000#32))))
      (constantI S_ 1 1#1) reducesTo_S800000_S_d0 h_S_ ix0 = 1#1) (i : S800000.Idx) :
    (-50000 : Int) ≤ (s i).toInt ∧ (s i).toInt < 50000 := by
  haveI : Subsingleton S_.Idx := ⟨fun a b => funext fun d => d.elim0⟩
  have hi := Host.reduce_andi_all _ _ reducesTo_S800000_S_d0 h_S_ ix0 h i
  change IntOp.andi (IntOp.cmpi .sge (s i) 4294917296#32) (IntOp.cmpi .slt (s i) 50000#32) = 1#1 at hi
  obtain ⟨hge, hlt⟩ := IntOp.andi_eq_one.1 hi
  have hlo := IntOp.cmpi_sge.1 hge
  have hhi := IntOp.cmpi_slt.1 hlt
  have e1 : (4294917296#32 : BitVec 32).toInt = -50000 := by decide
  have e2 : (50000#32 : BitVec 32).toInt = 50000 := by decide
  rw [e1] at hlo; rw [e2] at hhi
  exact ⟨hlo, hhi⟩

/-- THE PRECONDITION GIVES THE RANGE: where the printed predicate is 1, every source index of both edge lists is in
    −50000 … 49999. -/
theorem src_bounds (x0 : FVec Ideal S50000x128 .f32) (x1 : FVec Ideal S128x128 .f32) (x2 : FVec Ideal S128 .f32)
    (x3 x4 : FVec Ideal S128x128 .f32) (x5 : FVec Ideal S128 .f32) (e6 e7 : IVec S2x800000 32)
    (h : fn (F := Ideal) x0 x1 x2 x3 x4 x5 e6 e7 = fun _ => 1#1) :
    (∀ i, (-50000 : Int) ≤ (srcRow e6 i).toInt ∧ (srcRow e6 i).toInt < 50000)
    ∧ (∀ i, (-50000 : Int) ≤ (srcRow e7 i).toInt ∧ (srcRow e7 i).toInt < 50000) := by
  have h0 := congrFun h ix0
  dsimp only [fn, fn_part1, fn_part2] at h0
  change IntOp.andi (IntOp.andi _ _) _ = 1#1 at h0
  obtain ⟨h1, hb⟩ := IntOp.andi_eq_one.1 h0
  obtain ⟨_, ha⟩ := IntOp.andi_eq_one.1 h1
  exact ⟨bounds_of_all (srcRow e6) ha, bounds_of_all (srcRow e7) hb⟩

end Pre

end Cert.IndexRange

end
-- ==== Proof.KernelHost.lean ====
/-
  The arrays the kernel's region finds.

  Before the region the kernel's program computes, per edge list, the mean aggregation: it takes the rows of the feature
  table at the source indices, scatter-adds them at the target indices, and divides by the clipped degree. The take is
  jnp's: the index is wrapped from the end when negative, the row is gathered, and where the wrapped index is not in
  0 … 49999 the row is replaced by a NaN constant. Under the precondition every source index is in −50000 … 49999, so every
  wrapped index is in range, the test is true at every edge, and the take is the plain gather. What follows the take —
  the scatter-add and the division — is one function of (the taken rows, the target indices), never opened.

  The three weight matrices are narrowed to bf16 before the region: at the ideal values, unchanged.
-/
import proofs.«429687_j41635412968139_1_alg».proof.Proof.Gen.KernelIdeal.Frame
import proofs.«429687_j41635412968139_1_alg».proof.Proof.IndexRange
import Idealize.ShloMosaic.Lib.StableHlo.Run
import Idealize.ShloMosaic.Lib.Pipeline.Value
import Idealize.ShloMosaic.Lib.ValueIdx
import Idealize.ShloMosaic.Lib.ReduceAll
import Idealize.ShloMosaic.PureOps.Reduce

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-! ## The host operations before the region, as functions -/

/-- The source-node row of an edge list. -/
def srcRow (ei : IVec S2x800000 32) : IVec S800000 32 :=
  shapeCast S800000 (extractStridedSlice S1x800000 ![0, 0] ei slices_S2x800000_S1x800000_0_0) shapeCasts_S1x800000_S800000
/-- The target-node row of an edge list. -/
def tgtRow (ei : IVec S2x800000 32) : IVec S800000 32 :=
  shapeCast S800000 (extractStridedSlice S1x800000 ![1, 0] ei slices_S2x800000_S1x800000_1_0) shapeCasts_S1x800000_S800000

/-- Indices wrapped from the end of the 50000-row table when negative. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- An index vector as the one-column table a gather or scatter takes. -/
def col (s : IVec S800000 32) : IVec S800000x1 32 := broadcastInDim S800000x1 ![0] bcast_S800000_S800000x1_0 s

/-- Per edge: is the (wrapped) index a row number 0 … 49999? -/
def valid (s : IVec S800000 32) : IVec S800000 1 :=
  Host.reduce IntOp.andi
    (andi (cmpi .sge (col s) (broadcastInDim S800000x1 ![] bcast_S_S800000x1 (constantI S_ 32 0#32)))
      (cmpi .sle (col s) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The table's rows at the given indices. -/
def rows (x : FVec Ideal S50000x128 .f32) (s : IVec S800000 32) : FVec Ideal S800000x128 .f32 :=
  Host.gather gather_S50000x128_S800000x1_S800000x128_1_0_n_n_0_1_1128 x (col s)

/-- jnp's take: the wrapped indices' rows, a NaN constant where the wrapped index is out of range. -/
def take (x : FVec Ideal S50000x128 .f32) (s : IVec S800000 32) : FVec Ideal S800000x128 .f32 :=
  select (broadcastInDim S800000x128 ![0] bcast_S800000_S800000x128_0 (valid (wrap s))) (rows x (wrap s))
    (broadcastInDim S800000x128 ![] bcast_S_S800000x128 (constant (F := Ideal) S_ .f32 0x7FC00000#32))

/-- The mean aggregation of per-edge rows `msg` at the target indices `t`: the rows summed per target node, over the
    number of edges into the node (at least 1). One function of (msg, t): the kernel's program and the reference apply the same. -/
def meanAgg (msg : FVec Ideal S800000x128 .f32) (t : IVec S800000 32) : FVec Ideal S50000x128 .f32 :=
  Host.divf (F := Ideal)
    (Host.scatterAdd scatter_S50000x128_S800000x1_S800000x128_1_0_0_1
      (broadcastInDim S50000x128 ![] bcast_S_S50000x128 (constant (F := Ideal) S_ .f32 0x00000000#32)) (col t) msg)
    (broadcastInDim S50000x128 ![0, 1] bcast_S50000x1_S50000x128_0_1 (broadcastInDim S50000x1 ![0] bcast_S50000_S50000x1_0
      (maximumf
        (Host.scatterAdd scatter_S50000_S800000x1_S800000_n_0_0_1
          (broadcastInDim S50000 ![] bcast_S_S50000 (constant (F := Ideal) S_ .f32 0x00000000#32)) (col t)
          (broadcastInDim S800000 ![] bcast_S_S800000 (constant (F := Ideal) S_ .f32 0x3F800000#32)))
        (broadcastInDim S50000 ![] bcast_S_S50000 (constant (F := Ideal) S_ .f32 0x3F800000#32)))))

/-! ## Under the range, the take is the gather -/

theorem col_apply (s : IVec S800000 32) (e : Fin 800000) (u : Fin 1) : col s (ix2 e u) = s (ix1 e) := by
  unfold col
  exact broadcastInDim_apply _ bcast_S800000_S800000x1_0 s (ix2 e u) (ix1 e) (fun a => match a with
    | ⟨0, _⟩ => by show e.val = if (800000 : Nat) = 1 then 0 else e.val; rw [if_neg (by decide)])

/-- A fold of `and` over words that are all 1, from 1, is 1. -/
theorem fold_andi_one {ι : Type} [DecidableEq ι] (S : Finset ι) (f : ι → BitVec 1) (h : ∀ i ∈ S, f i = 1#1) :
    S.fold IntOp.andi 1#1 f = 1#1 := by
  induction S using Finset.induction_on with
  | empty => rfl
  | insert a S ha ih =>
    rw [Finset.fold_insert ha, h a (Finset.mem_insert_self _ _), ih (fun i hi => h i (Finset.mem_insert_of_mem hi))]
    rfl

/-- Where every entry is a row number, the test is true at every edge: the test reduces, by `and` from 1, the pair of
    comparisons of the entry with 0 and with 49999. -/
theorem valid_of_mem (s : IVec S800000 32)
    (h : ∀ i, (0#32 : BitVec 32).toInt ≤ (s i).toInt ∧ (s i).toInt ≤ (49999#32 : BitVec 32).toInt) (i : S800000.Idx) : valid s i = 1#1 := by
  unfold valid
  rw [Host.reduce_eq_fold]
  refine fold_andi_one _ _ (fun y _ => ?_)
  obtain ⟨a, u, rfl⟩ : ∃ (a : Fin 800000) (u : Fin 1), y = ix2 a u := ⟨y 0, y 1, eq_ix2 y⟩
  show IntOp.andi (IntOp.cmpi .sge (col s (ix2 a u)) 0#32) (IntOp.cmpi .sle (col s (ix2 a u)) 49999#32) = 1#1
  rw [col_apply]
  exact IntOp.andi_eq_one.2 ⟨IntOp.cmpi_sge.2 (h (ix1 a)).1, IntOp.cmpi_sle.2 (h (ix1 a)).2⟩

/-- THE TAKE IS THE GATHER where every index is in −50000 … 49999. -/
theorem take_eq (x : FVec Ideal S50000x128 .f32) (s : IVec S800000 32)
    (h : ∀ i, (-50000 : Int) ≤ (s i).toInt ∧ (s i).toInt < 50000) : take x s = rows x (wrap s) := by
  funext j
  unfold take
  have hv : broadcastInDim S800000x128 ![0] bcast_S800000_S800000x128_0 (valid (wrap s)) j = 1#1 := by
    refine (broadcastInDim_apply _ bcast_S800000_S800000x128_0 (valid (wrap s)) j (ix1 (j 0)) (fun a => match a with
      | ⟨0, _⟩ => by show (j 0).val = if (800000 : Nat) = 1 then 0 else (j 0).val; rw [if_neg (by decide)])).trans ?_
    exact valid_of_mem (wrap s) (fun i => Cert.IndexRange.wrap_mem (s i) (h i).1 (h i).2) _
  rw [select_apply, hv]
  exact if_pos rfl

/-! ## The region's arrays -/

variable (m : (ℓ : Loc nD τ sig) → Buf (Elt Ideal) ℓ)

/-- A cast along an equation of a type with itself does nothing (stated so that it rewrites, not merely unfolds). -/
theorem strip_cast {α : Sort _} (h : α = α) (a : α) : cast h a = a := eq_of_heq (cast_heq h a)

/-- The first edge type's aggregated array, as the region finds it. -/
theorem aggA_eq (c : Dev nD) :
    (V m c main_v16 : S50000x128.Idx → EReal)
      = meanAgg (take (m ((c : Thread nD τ).loc main_arg0)) (srcRow (m ((c : Thread nD τ).loc main_arg6)))) (tgtRow (m ((c : Thread nD τ).loc main_arg6))) := by
  dsimp only [V]
  simp only [hostOps0, hostOps0_1, hostOps0_2, hostOps0_3, hostOps0_4, List.flatten_cons, List.flatten_nil, List.append_nil, List.cons_append, List.nil_append]
  after_results_simp
  simp only [TRef.ofBuf, TRef.toBuf, strip_cast]
  unfold meanAgg take rows valid wrap col srcRow tgtRow
  rfl

/-- The second edge type's. -/
theorem aggB_eq (c : Dev nD) :
    (V m c main_v33 : S50000x128.Idx → EReal)
      = meanAgg (take (m ((c : Thread nD τ).loc main_arg0)) (srcRow (m ((c : Thread nD τ).loc main_arg7)))) (tgtRow (m ((c : Thread nD τ).loc main_arg7))) := by
  dsimp only [V]
  simp only [hostOps0, hostOps0_1, hostOps0_2, hostOps0_3, hostOps0_4, List.flatten_cons, List.flatten_nil, List.append_nil, List.cons_append, List.nil_append]
  after_results_simp
  simp only [TRef.ofBuf, TRef.toBuf, strip_cast]
  unfold meanAgg take rows valid wrap col srcRow tgtRow
  rfl

/-- The three weight matrices, narrowed: at the ideal values the matrices themselves. -/
theorem wl_eq (c : Dev nD) : (V m c main_v34 : S128x128.Idx → EReal) = m ((c : Thread nD τ).loc main_arg1) := by
  dsimp only [V]
  simp only [hostOps0, hostOps0_1, hostOps0_2, hostOps0_3, hostOps0_4, List.flatten_cons, List.flatten_nil, List.append_nil, List.cons_append, List.nil_append]
  after_results_simp
  rfl
theorem wr_eq (c : Dev nD) : (V m c main_v35 : S128x128.Idx → EReal) = m ((c : Thread nD τ).loc main_arg3) := by
  dsimp only [V]
  simp only [hostOps0, hostOps0_1, hostOps0_2, hostOps0_3, hostOps0_4, List.flatten_cons, List.flatten_nil, List.append_nil, List.cons_append, List.nil_append]
  after_results_simp
  rfl
theorem wp_eq (c : Dev nD) : (V m c main_v36 : S128x128.Idx → EReal) = m ((c : Thread nD τ).loc main_arg4) := by
  dsimp only [V]
  simp only [hostOps0, hostOps0_1, hostOps0_2, hostOps0_3, hostOps0_4, List.flatten_cons, List.flatten_nil, List.append_nil, List.cons_append, List.nil_append]
  after_results_simp
  rfl

end Cert.KernelIdeal.HostValue

end
-- ==== Proof.RefValue.lean ====
/-
  The reference, row by row.

  After the two mean aggregations the reference applies, per edge type, three stages to whole [50000, 128] arrays:
  the SAGE convolution (two matrix products and a bias), the pooling layer (a matrix product and a bias), and a softmax
  along the channels. Each stage's entry at node r, channel j depends on row r of its operand only: a matrix product
  is a sum over the 128 input channels of that row, a bias or a per-node statistic is laid along one axis, a maximum or a
  sum runs over the row. So the result at (r, j) is the row function of row r of the two aggregated arrays and of the
  features; the aggregated arrays themselves are carried whole and never opened here.
-/
import proofs.«429687_j41635412968139_1_alg».proof.Proof.Gen.ReferenceIdeal.Read
import proofs.«429687_j41635412968139_1_alg».proof.Proof.RowSpec
import proofs.«429687_j41635412968139_1_alg».proof.Proof.LibRowOps

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.SageRow Cert.RowOps

/-! ## The host operations of one stage, read at (r, j) -/

/-- A [50000, 128] array times a [128, 128] matrix, at node r and output channel j: the sum over the input channels. -/
theorem prod_apply (A : FVec Ideal S50000x128 .f32) (W : FVec Ideal S128x128 .f32) (r : Fin 50000) (j : Fin 128) :
    Host.dotGeneral dot_S50000x128_S128x128_S50000x128_1_0_0_1_n_n none A W (ix2 r j) = ∑ k : Fin 128, A (ix2 r k) * W (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact lhs_main_v23_0 _ _
    | ⟨1, _⟩ => exact (lhs_main_v23_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (rhs_main_v23_0 _ _).trans hk
    | ⟨1, _⟩ => exact rhs_main_v23_1 _ _)
  rw [el, er]

/-- A bias [128] laid along the channels of every node reads, at (r, j), the bias at j. -/
theorem bias_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A per-node value [50000] laid along every channel reads, at (r, j), the value of node r. -/
theorem perNode_apply (v : FVec Ideal S50000 .f32) (r : Fin 50000) (j : Fin 128) :
    broadcastInDim S50000x128 ![0, 1] bcast_S50000x1_S50000x128_0_1 (broadcastInDim S50000x1 ![0] bcast_S50000_S50000x1_0 v) (ix2 r j) = v (ix1 r) := by
  refine (broadcastInDim_apply _ bcast_S50000x1_S50000x128_0_1 _ (ix2 r j) (ix2 r (0 : Fin 1)) (fun a => match a with
    | ⟨0, _⟩ => by show r.val = if (50000 : Nat) = 1 then 0 else r.val; rw [if_neg (by decide)]
    | ⟨1, _⟩ => by show 0 = if (1 : Nat) = 1 then 0 else j.val; rw [if_pos rfl])).trans ?_
  exact broadcastInDim_apply _ bcast_S50000_S50000x1_0 v (ix2 r (0 : Fin 1)) (ix1 r) (fun a => match a with
    | ⟨0, _⟩ => by show r.val = if (50000 : Nat) = 1 then 0 else r.val; rw [if_neg (by decide)])

/-- The host's quotient of two arrays, at an index, is the quotient of their entries there. -/
theorem quot_apply {s : Shape} (a b : FVec Ideal s .f32) (i : s.Idx) : Host.divf (F := Ideal) a b i = Ideal.div (a i) (b i) := rfl

/-! ## The three stages as functions of whole arrays -/

/-- The SAGE convolution of an aggregated array `A` and the features `X`. -/
def conv (A X : FVec Ideal S50000x128 .f32) (Wl Wr : FVec Ideal S128x128 .f32) (bl : FVec Ideal S128 .f32) : FVec Ideal S50000x128 .f32 :=
  addf (addf (Host.dotGeneral dot_S50000x128_S128x128_S50000x128_1_0_0_1_n_n none A Wl)
      (broadcastInDim S50000x128 ![0, 1] bcast_S1x128_S50000x128_0_1 (broadcastInDim S1x128 ![1] bcast_S128_S1x128_1 bl)))
    (Host.dotGeneral dot_S50000x128_S128x128_S50000x128_1_0_0_1_n_n none X Wr)

/-- The pooling layer. -/
def pool (H : FVec Ideal S50000x128 .f32) (Wp : FVec Ideal S128x128 .f32) (bp : FVec Ideal S128 .f32) : FVec Ideal S50000x128 .f32 :=
  addf (Host.dotGeneral dot_S50000x128_S128x128_S50000x128_1_0_0_1_n_n none H Wp)
    (broadcastInDim S50000x128 ![0, 1] bcast_S1x128_S50000x128_0_1 (broadcastInDim S1x128 ![1] bcast_S128_S1x128_1 bp))

/-- Each node's maximum over the channels, from −∞. -/
def nodeMax (L : FVec Ideal S50000x128 .f32) : FVec Ideal S50000 .f32 :=
  maximumf (broadcastInDim S50000 ![] bcast_S_S50000 (constant (F := Ideal) S_ .f32 0xFF800000#32))
    (Host.reduce FloatOps.maximumf L (constant (F := Ideal) S_ .f32 0xFF800000#32) reducesTo_S50000x128_S50000_d1 h_S_)

/-- The exponentials of the logits shifted by their node's maximum. -/
def shiftedExp (L : FVec Ideal S50000x128 .f32) : FVec Ideal S50000x128 .f32 :=
  Host.exp (F := Ideal) (subf L (broadcastInDim S50000x128 ![0, 1] bcast_S50000x1_S50000x128_0_1 (broadcastInDim S50000x1 ![0] bcast_S50000_S50000x1_0 (nodeMax L))))

/-- The softmax along the channels. -/
def soft (L : FVec Ideal S50000x128 .f32) : FVec Ideal S50000x128 .f32 :=
  Host.divf (F := Ideal) (shiftedExp L)
    (broadcastInDim S50000x128 ![0, 1] bcast_S50000x1_S50000x128_0_1 (broadcastInDim S50000x1 ![0] bcast_S50000_S50000x1_0
      (Host.reduceAdd (F := Ideal) (shiftedExp L) (constant (F := Ideal) S_ .f32 0x00000000#32) reducesTo_S50000x128_S50000_d1 h_S_)))

/-! ## Each stage at (r, j) is the row function's stage of row r -/

theorem conv_apply (A X : FVec Ideal S50000x128 .f32) (Wl Wr : FVec Ideal S128x128 .f32) (bl : FVec Ideal S128 .f32) (r : Fin 50000) (j : Fin 128) :
    conv A X Wl Wr bl (ix2 r j)
      = hidden (fun k => A (ix2 r k)) (fun k => X (ix2 r k)) (fun k j => Wl (ix2 k j)) (fun k j => Wr (ix2 k j)) (fun j => bl (ix1 j)) j := by
  unfold conv
  rw [addf_apply, addf_apply, prod_apply, prod_apply, bias_apply]
  rfl

theorem pool_apply (H : FVec Ideal S50000x128 .f32) (Wp : FVec Ideal S128x128 .f32) (bp : FVec Ideal S128 .f32) (r : Fin 50000) (j : Fin 128) :
    pool H Wp bp (ix2 r j) = vecMat (fun k => H (ix2 r k)) (fun k j => Wp (ix2 k j)) j + bp (ix1 j) := by
  unfold pool
  rw [addf_apply, prod_apply, bias_apply]
  rfl

theorem nodeMax_apply (L : FVec Ideal S50000x128 .f32) (r : Fin 50000) : nodeMax L (ix1 r) = rowMax (fun k => L (ix2 r k)) := by
  unfold nodeMax
  rw [maximumf_apply, hostReduce_max_row L _ reducesTo_S50000x128_S50000_d1 (by decide) h_S_ r]
  rfl

theorem shiftedExp_apply (L : FVec Ideal S50000x128 .f32) (r : Fin 50000) (j : Fin 128) :
    shiftedExp L (ix2 r j) = Ideal.exp (L (ix2 r j) - rowMax (fun k => L (ix2 r k))) := by
  unfold shiftedExp
  show Ideal.exp (subf L _ (ix2 r j)) = _
  rw [subf_apply, perNode_apply, nodeMax_apply]

theorem soft_apply (L : FVec Ideal S50000x128 .f32) (r : Fin 50000) (j : Fin 128) :
    soft L (ix2 r j) = softmax (fun k => L (ix2 r k)) j := by
  unfold soft
  have hsum : Host.reduceAdd (F := Ideal) (shiftedExp L) (constant (F := Ideal) S_ .f32 0x00000000#32) reducesTo_S50000x128_S50000_d1 h_S_ (ix1 r)
      = ∑ k : Fin 128, Ideal.exp (L (ix2 r k) - rowMax (fun k => L (ix2 r k))) := by
    simp only [Host.reduceAdd, Ideal.hostReduceAdd_def]
    refine (hostReduceAdd_row (shiftedExp L) _ reducesTo_S50000x128_S50000_d1 (by decide) r).trans ?_
    refine (congrArg (· + _) (show constant (F := Ideal) S_ .f32 0x00000000#32 (Shape.Idx.first h_S_) = 0 from Ideal.ofBits_zero_f32)).trans ?_
    rw [zero_add]
    exact Finset.sum_congr rfl fun k _ => shiftedExp_apply L r k
  have hden := (perNode_apply (Host.reduceAdd (F := Ideal) (shiftedExp L) (constant (F := Ideal) S_ .f32 0x00000000#32) reducesTo_S50000x128_S50000_d1 h_S_) r j).trans hsum
  have hnum := shiftedExp_apply L r j
  rw [quot_apply, hden, hnum]
  rfl

/-! ## The generated stages are these -/

theorem first_branch (x0 : FVec Ideal S50000x128 .f32) (x1 : FVec Ideal S128x128 .f32) (x2 : FVec Ideal S128 .f32) (x3 x4 : FVec Ideal S128x128 .f32)
    (x5 : FVec Ideal S128 .f32) (x6 : IVec S2x800000 32) :
    val_main_v43 (F := Ideal) x0 x1 x2 x3 x4 x5 x6 = soft (pool (conv (val_main_v22 (F := Ideal) x0 x6) x0 x1 x3 x2) x4 x5) := rfl

theorem second_branch (x0 : FVec Ideal S50000x128 .f32) (x1 : FVec Ideal S128x128 .f32) (x2 : FVec Ideal S128 .f32) (x3 x4 : FVec Ideal S128x128 .f32)
    (x5 : FVec Ideal S128 .f32) (x7 : IVec S2x800000 32) :
    val_main_v87 (F := Ideal) x0 x1 x2 x3 x4 x5 x7 = soft (pool (conv (val_main_v66 (F := Ideal) x0 x7) x0 x1 x3 x2) x4 x5) := rfl

/-- A branch at (r, j): the softmax of the row's logits. -/
theorem branch_apply (A X : FVec Ideal S50000x128 .f32) (Wl Wr Wp : FVec Ideal S128x128 .f32) (bl bp : FVec Ideal S128 .f32) (r : Fin 50000) (j : Fin 128) :
    soft (pool (conv A X Wl Wr bl) Wp bp) (ix2 r j)
      = softmax (logits (fun k => A (ix2 r k)) (fun k => X (ix2 r k)) (fun k j => Wl (ix2 k j)) (fun k j => Wr (ix2 k j)) (fun k j => Wp (ix2 k j))
          (fun j => bl (ix1 j)) (fun j => bp (ix1 j))) j := by
  rw [soft_apply]
  refine congrArg (fun L => softmax L j) (funext fun k => ?_)
  rw [pool_apply]
  refine congrArg (fun H => vecMat H (fun k j => Wp (ix2 k j)) k + bp (ix1 k)) (funext fun k' => ?_)
  exact conv_apply A X Wl Wr bl r k'

/-- THE REFERENCE'S RESULT is the row function applied node by node to its own two aggregated arrays and the features. -/
theorem result_eq (x0 : FVec Ideal S50000x128 .f32) (x1 : FVec Ideal S128x128 .f32) (x2 : FVec Ideal S128 .f32) (x3 x4 : FVec Ideal S128x128 .f32)
    (x5 : FVec Ideal S128 .f32) (x6 x7 : IVec S2x800000 32) :
    val_main_v90 (F := Ideal) x0 x1 x2 x3 x4 x5 x6 x7
      = out 50000 (val_main_v22 (F := Ideal) x0 x6) (val_main_v66 (F := Ideal) x0 x7) x0 x1 x3 x4 x2 x5 := by
  funext i
  obtain ⟨r, j, rfl⟩ : ∃ (r : Fin 50000) (j : Fin 128), i = ix2 r j := ⟨i 0, i 1, eq_ix2 i⟩
  rw [out_apply]
  show (val_main_v43 (F := Ideal) x0 x1 x2 x3 x4 x5 x6 (ix2 r j) + val_main_v87 (F := Ideal) x0 x1 x2 x3 x4 x5 x7 (ix2 r j)) * Ideal.ofBits .f32 0x3F000000#32 = _
  rw [first_branch, second_branch, branch_apply, branch_apply]
  rfl

end Cert.ReferenceIdeal.RefValue

end
-- ==== Proof.Bridge.lean ====
/-
  The two results are one array.

  The kernel ends with the row function applied node by node to the arrays its region finds; the reference with the same
  row function applied to its own two aggregated arrays and the inputs. Under the precondition the arrays agree:
  the features, weights and biases are the inputs themselves (the weights narrowed to bf16: unchanged at the ideal
  values); each aggregated array is the SAME mean aggregation of the same target indices and of the rows taken at the
  source indices — the kernel's take being the reference's plain gather because every source index is in range.
-/
import proofs.«429687_j41635412968139_1_alg».proof.Proof.KernelFinal
import proofs.«429687_j41635412968139_1_alg».proof.Proof.KernelHost
import proofs.«429687_j41635412968139_1_alg».proof.Proof.RefValue

set_option maxRecDepth 16384

noncomputable section

namespace Cert.Proof.Bridge

open Cert.KernelIdeal Cert.KernelIdeal.Gen Idealize.ShloMosaic Idealize.ShloMosaic.TcCoe Idealize.SL.Sem
open Idealize.ShloMosaic.ValueIdx Cert.SageRow Cert.KernelIdeal.HostValue

/-- The whole-array function of equal arrays is equal. -/
theorem out_congr {n : Nat} {A A' B B' X X' : (⟨2, ![n, 128]⟩ : Shape).Idx → EReal}
    {Wl Wl' Wr Wr' Wp Wp' : (⟨2, ![128, 128]⟩ : Shape).Idx → EReal} {bl bl' bp bp' : (⟨1, ![128]⟩ : Shape).Idx → EReal}
    (hA : A = A') (hB : B = B') (hX : X = X') (hWl : Wl = Wl') (hWr : Wr = Wr') (hWp : Wp = Wp') (hbl : bl = bl') (hbp : bp = bp') :
    out n A B X Wl Wr Wp bl bp = out n A' B' X' Wl' Wr' Wp' bl' bp' := by
  subst hA hB hX hWl hWr hWp hbl hbp; rfl

variable (m : (ℓ : Loc nD τ sig) → Buf (Elt Ideal) ℓ)

/-- What the region finds at equal references is equal (as heterogeneous values: the buffers' types follow the references). -/
theorem V_heq (c : Dev nD) {b b' : Ref sig .tc} (h : b = b') : HEq (V m c b) (V m c b') := by subst h; exact HEq.rfl

/-! ## Each window's array is a named buffer of @main -/

theorem win0_eq (c : Dev nD) : (V m c (Pipeline.arrRef spec0 0) : S50000x128.Idx → EReal) = (V m c main_v16 : S50000x128.Idx → EReal) :=
  eq_of_heq (V_heq m c (b := Pipeline.arrRef spec0 0) (b' := main_v16) rfl)
theorem win1_eq (c : Dev nD) : (V m c (Pipeline.arrRef spec0 1) : S50000x128.Idx → EReal) = (V m c main_v33 : S50000x128.Idx → EReal) :=
  eq_of_heq (V_heq m c (b := Pipeline.arrRef spec0 1) (b' := main_v33) rfl)
theorem win2_eq (c : Dev nD) : (V m c (Pipeline.arrRef spec0 2) : S50000x128.Idx → EReal) = (V m c main_arg0 : S50000x128.Idx → EReal) :=
  eq_of_heq (V_heq m c (b := Pipeline.arrRef spec0 2) (b' := main_arg0) rfl)
theorem win3_eq (c : Dev nD) : (V m c (Pipeline.arrRef spec0 3) : S128x128.Idx → EReal) = (V m c main_v34 : S128x128.Idx → EReal) :=
  eq_of_heq (V_heq m c (b := Pipeline.arrRef spec0 3) (b' := main_v34) rfl)
theorem win4_eq (c : Dev nD) : (V m c (Pipeline.arrRef spec0 4) : S128x128.Idx → EReal) = (V m c main_v35 : S128x128.Idx → EReal) :=
  eq_of_heq (V_heq m c (b := Pipeline.arrRef spec0 4) (b' := main_v35) rfl)
theorem win5_eq (c : Dev nD) : (V m c (Pipeline.arrRef spec0 5) : S128x128.Idx → EReal) = (V m c main_v36 : S128x128.Idx → EReal) :=
  eq_of_heq (V_heq m c (b := Pipeline.arrRef spec0 5) (b' := main_v36) rfl)
theorem win6_eq (c : Dev nD) : (V m c (Pipeline.arrRef spec0 6) : S128.Idx → EReal) = (V m c main_arg2 : S128.Idx → EReal) :=
  eq_of_heq (V_heq m c (b := Pipeline.arrRef spec0 6) (b' := main_arg2) rfl)
theorem win7_eq (c : Dev nD) : (V m c (Pipeline.arrRef spec0 7) : S128.Idx → EReal) = (V m c main_arg5 : S128.Idx → EReal) :=
  eq_of_heq (V_heq m c (b := Pipeline.arrRef spec0 7) (b' := main_arg5) rfl)

/-! ## The kernel's result in terms of the inputs -/

/-- THE KERNEL'S RESULT, where both edge lists' source indices are in −50000 … 49999: the row function, node by node, of the
    two mean aggregations (of the plainly gathered rows) and of the inputs. -/
theorem whole_eq (c : Dev nD)
    (hA : ∀ i, (-50000 : Int) ≤ (srcRow (m ((c : Thread nD τ).loc main_arg6)) i).toInt ∧ (srcRow (m ((c : Thread nD τ).loc main_arg6)) i).toInt < 50000)
    (hB : ∀ i, (-50000 : Int) ≤ (srcRow (m ((c : Thread nD τ).loc main_arg7)) i).toInt ∧ (srcRow (m ((c : Thread nD τ).loc main_arg7)) i).toInt < 50000) :
    Cert.KernelIdeal.Blocks.whole m c
      = out 50000 (meanAgg (rows (m ((c : Thread nD τ).loc main_arg0)) (wrap (srcRow (m ((c : Thread nD τ).loc main_arg6))))) (tgtRow (m ((c : Thread nD τ).loc main_arg6))))
          (meanAgg (rows (m ((c : Thread nD τ).loc main_arg0)) (wrap (srcRow (m ((c : Thread nD τ).loc main_arg7))))) (tgtRow (m ((c : Thread nD τ).loc main_arg7))))
          (m ((c : Thread nD τ).loc main_arg0)) (m ((c : Thread nD τ).loc main_arg1)) (m ((c : Thread nD τ).loc main_arg3)) (m ((c : Thread nD τ).loc main_arg4)) (m ((c : Thread nD τ).loc main_arg2)) (m ((c : Thread nD τ).loc main_arg5)) := by
  unfold Cert.KernelIdeal.Blocks.whole
  exact out_congr
    ((win0_eq m c).trans ((aggA_eq m c).trans (congrArg (fun g => meanAgg g (tgtRow (m ((c : Thread nD τ).loc main_arg6)))) (take_eq _ _ hA))))
    ((win1_eq m c).trans ((aggB_eq m c).trans (congrArg (fun g => meanAgg g (tgtRow (m ((c : Thread nD τ).loc main_arg7)))) (take_eq _ _ hB))))
    ((win2_eq m c).trans (V_main_arg0 m c))
    ((win3_eq m c).trans (wl_eq m c)) ((win4_eq m c).trans (wr_eq m c)) ((win5_eq m c).trans (wp_eq m c))
    ((win6_eq m c).trans (V_main_arg2 m c)) ((win7_eq m c).trans (V_main_arg5 m c))

/-! ## The reference's aggregated arrays are the same mean aggregation -/

theorem ref_aggA (x0 : (⟨2, ![50000, 128]⟩ : Shape).Idx → EReal) (e : IVec ⟨2, ![2, 800000]⟩ 32) :
    Cert.ReferenceIdeal.Read.val_main_v22 (F := Ideal) x0 e = meanAgg (rows x0 (wrap (srcRow e))) (tgtRow e) := rfl
theorem ref_aggB (x0 : (⟨2, ![50000, 128]⟩ : Shape).Idx → EReal) (e : IVec ⟨2, ![2, 800000]⟩ 32) :
    Cert.ReferenceIdeal.Read.val_main_v66 (F := Ideal) x0 e = meanAgg (rows x0 (wrap (srcRow e))) (tgtRow e) := rfl

end Cert.Proof.Bridge

end
-- ==== Proof.lean ====
/-
  A two-edge-type GraphSAGE layer with softmax pooling, 50000 nodes of 128 channels, 800000 edges per edge type: a kernel
  that aggregates on the host and runs the dense part (convolution, pooling layer, softmax, mean of the two edge types) as
  one pallas_call over 25 blocks of 2000 nodes, against the plain jnp reference.

  Over the extended reals the two compute the same array. Per node the dense part is one function of that node's two
  aggregated rows and its feature row (Proof/RowSpec.lean); the reference applies it to whole arrays (Proof/RefValue.lean),
  the kernel block by block (Proof/KernelRow.lean, KernelBlocks.lean, KernelFlush.lean, KernelFinal.lean), in the same
  association, so no finiteness is used there. The aggregated rows differ in one place only: the kernel's program takes
  the source rows with jnp's take, which puts a NaN constant where a (wrapped) index is out of range, the reference
  gathers plainly. Under the precondition every source index is in −50000 … 49999, the range in which indexing a
  50000-row table is defined (Proof/IndexRange.lean), so the take is the gather (Proof/KernelHost.lean) and the two
  aggregated arrays are one (Proof/Bridge.lean).

  The frames are the generated ones; the idealization rewrote nothing, so `preserves` is trivial.
-/
import proofs.«429687_j41635412968139_1_alg».proof.Defs
import proofs.«429687_j41635412968139_1_alg».proof.Proof.Gen.Kernel
import proofs.«429687_j41635412968139_1_alg».proof.Proof.Gen.Kernel.Skeleton
import proofs.«429687_j41635412968139_1_alg».proof.Proof.Gen.Kernel.Launch
import proofs.«429687_j41635412968139_1_alg».proof.Proof.Gen.Kernel.Points
import proofs.«429687_j41635412968139_1_alg».proof.Proof.Gen.Kernel.Frame
import proofs.«429687_j41635412968139_1_alg».proof.Proof.Gen.KernelIdeal
import proofs.«429687_j41635412968139_1_alg».proof.Proof.Gen.KernelIdeal.Skeleton
import proofs.«429687_j41635412968139_1_alg».proof.Proof.Gen.KernelIdeal.Launch
import proofs.«429687_j41635412968139_1_alg».proof.Proof.Gen.KernelIdeal.Points
import proofs.«429687_j41635412968139_1_alg».proof.Proof.Gen.KernelIdeal.Frame
import proofs.«429687_j41635412968139_1_alg».proof.Proof.Gen.ReferenceIdeal
import proofs.«429687_j41635412968139_1_alg».proof.Proof.Gen.Pre_finite_inputs
import proofs.«429687_j41635412968139_1_alg».proof.Proof.Gen.KernelIdeal.Value
import proofs.«429687_j41635412968139_1_alg».proof.Proof.Gen.ReferenceIdeal.Run
import proofs.«429687_j41635412968139_1_alg».proof.Proof.Gen.ReferenceIdeal.Read
import proofs.«429687_j41635412968139_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments, with every float input finite and every source index in range, both
    programs end with the row function applied node by node to the same two aggregated arrays and the same inputs. -/
theorem algebraic : Cert.algebraic_KernelIdeal_ReferenceIdeal := by
  intro m ρ m' ρ' hpre hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB⟩ := Cert.IndexRange.src_bounds _ _ _ _ _ _ _ _ (hpre c)
  rw [Cert.ReferenceIdeal.Read.val_main_v90_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2, Bridge.ref_aggA, Bridge.ref_aggB]
  exact (Bridge.whole_eq m c (fun i => hA i) (fun i => hB i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
